-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 4
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S400x10000, .f32⟩
  | .local _ .vmem, ⟨3, _⟩ => ⟨S400x10000, .f32⟩
  | .local _ .vmem, ⟨4, _⟩ => ⟨S400x128, .f32⟩
  | .local _ .vmem, ⟨5, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  A graph-convolution layer over 10000 nodes with 128 features in and out, as a function of its three arrays, index by
  index on the extended reals: `relu (S · X · W)`, with `S` the dense adjacency [10000, 10000], `X` the node features
  [10000, 128] and `W` the weight [128, 128].

  The triple product can be bracketed two ways. `aggregateFirst` sums the neighbours' raw features and then applies the
  weight, entry `(i, l)` being `max (Σ k, (Σ j, S i j · X j k) · W k l) 0`; `transformFirst` applies the weight to every
  node and then sums over neighbours, `max (Σ j, S i j · (Σ k, X j k · W k l)) 0`. On the extended reals the two need not
  agree (multiplication does not distribute over a sum that meets both infinities), but when every entry of the three
  arrays is a real number each side is the real double sum `Σ j, Σ k, S i j · X j k · W k l`: `aggregateFirst_eq_transformFirst`.
-/
import Idealize.ShloMosaic.PureOps.Ideal.Laws
import Idealize.ShloMosaic.Lib.ValueIdx

noncomputable section

namespace Cert.GraphConv

open Idealize.ShloMosaic Idealize.ShloMosaic.ValueIdx

/-- Node features, and the layer's result: one row of 128 per node. -/
abbrev SFeat : Shape := ⟨2, ![10000, 128]⟩
/-- The dense adjacency. -/
abbrev SAdj : Shape := ⟨2, ![10000, 10000]⟩
/-- The weight. -/
abbrev SWt : Shape := ⟨2, ![128, 128]⟩

/-- `relu ((S · X) · W)`: entry `(i, l)` is `max (Σ k, (Σ j, S i j · X j k) · W k l) 0`. -/
def aggregateFirst (x : SFeat.Idx → EReal) (s : SAdj.Idx → EReal) (w : SWt.Idx → EReal) : SFeat.Idx → EReal :=
  fun i => max (∑ k : Fin 128, (∑ j : Fin 10000, s (ix2 (i 0) j) * x (ix2 j k)) * w (ix2 k (i 1))) 0

/-- `relu (S · (X · W))`: entry `(i, l)` is `max (Σ j, S i j · (Σ k, X j k · W k l)) 0`. -/
def transformFirst (x : SFeat.Idx → EReal) (s : SAdj.Idx → EReal) (w : SWt.Idx → EReal) : SFeat.Idx → EReal :=
  fun i => max (∑ j : Fin 10000, s (ix2 (i 0) j) * ∑ k : Fin 128, x (ix2 j k) * w (ix2 k (i 1))) 0

/-- `aggregateFirst` at node `p`, output feature `l`. -/
theorem aggregateFirst_apply (x : SFeat.Idx → EReal) (s : SAdj.Idx → EReal) (w : SWt.Idx → EReal) (p : Fin 10000) (l : Fin 128) :
    aggregateFirst x s w (ix2 p l) = max (∑ k : Fin 128, (∑ j : Fin 10000, s (ix2 p j) * x (ix2 j k)) * w (ix2 k l)) 0 := rfl

/-- `transformFirst` at node `p`, output feature `l`. -/
theorem transformFirst_apply (x : SFeat.Idx → EReal) (s : SAdj.Idx → EReal) (w : SWt.Idx → EReal) (p : Fin 10000) (l : Fin 128) :
    transformFirst x s w (ix2 p l) = max (∑ j : Fin 10000, s (ix2 p j) * ∑ k : Fin 128, x (ix2 j k) * w (ix2 k l)) 0 := rfl

/-- The coercion of the reals into the extended reals carries a finite sum to the sum of the coercions. -/
theorem coe_sum {ι : Type} (t : Finset ι) (g : ι → ℝ) : ((∑ a ∈ t, g a : ℝ) : EReal) = ∑ a ∈ t, (g a : EReal) := by
  classical
  refine Finset.induction_on t (by simp) fun a t ha ih => ?_
  rw [Finset.sum_insert ha, Finset.sum_insert ha, EReal.coe_add, ih]

/-- Associativity of the triple product, one entry, over real numbers embedded in the extended reals: summing
    `s j · x j k` over `j`, scaling by `w k` and summing over `k` is summing over `j` the product of `s j` with
    `Σ k, x j k · w k`. Both are the coercion of the real double sum. -/
theorem sum_mul_assoc_real {J K : Type} [Fintype J] [Fintype K] (s : J → ℝ) (x : J → K → ℝ) (w : K → ℝ) :
    ∑ k, (∑ j, (s j : EReal) * (x j k : EReal)) * (w k : EReal) = ∑ j, (s j : EReal) * ∑ k, (x j k : EReal) * (w k : EReal) := by
  have hl : ∀ k, (∑ j, (s j : EReal) * (x j k : EReal)) * (w k : EReal) = (((∑ j, s j * x j k) * w k : ℝ) : EReal) := fun k => by
    rw [EReal.coe_mul, coe_sum]
    exact congrArg (· * (w k : EReal)) (Finset.sum_congr rfl fun j _ => (EReal.coe_mul _ _).symm)
  have hr : ∀ j, (s j : EReal) * ∑ k, (x j k : EReal) * (w k : EReal) = ((s j * ∑ k, x j k * w k : ℝ) : EReal) := fun j => by
    rw [EReal.coe_mul, coe_sum]
    exact congrArg ((s j : EReal) * ·) (Finset.sum_congr rfl fun k _ => (EReal.coe_mul _ _).symm)
  rw [Finset.sum_congr rfl fun k _ => hl k, Finset.sum_congr rfl fun j _ => hr j, ← coe_sum, ← coe_sum]
  refine congrArg _ ?_
  simp only [Finset.sum_mul, Finset.mul_sum]
  rw [Finset.sum_comm]
  exact Finset.sum_congr rfl fun j _ => Finset.sum_congr rfl fun k _ => mul_assoc _ _ _

/-- When every entry of the features, the adjacency and the weight is a real number, the two bracketings of the layer
    are one function. -/
theorem aggregateFirst_eq_transformFirst (x : SFeat.Idx → EReal) (s : SAdj.Idx → EReal) (w : SWt.Idx → EReal)
    (hx : ∀ i, ∃ r : ℝ, x i = (r : EReal)) (hs : ∀ i, ∃ r : ℝ, s i = (r : EReal)) (hw : ∀ i, ∃ r : ℝ, w i = (r : EReal)) :
    aggregateFirst x s w = transformFirst x s w := by
  choose x' hx' using hx
  choose s' hs' using hs
  choose w' hw' using hw
  funext i
  unfold aggregateFirst transformFirst
  simp only [hx', hs', hw']
  exact congrArg (max · 0) (sum_mul_assoc_real (fun j : Fin 10000 => s' (ix2 (i 0) j)) (fun j k => x' (ix2 j k)) (fun k : Fin 128 => w' (ix2 k (i 1))))

end Cert.GraphConv

end
-- ==== Proof.Finite.lean ====
/-
  The precondition read back: every entry of the three argument arrays is a real number.

  The precondition is, per array, `all (|x| < +∞)`, the three conjoined. On the extended reals `|x|` is `max x (-x)`, and
  `max x (-x) < ⊤` excludes both infinities, so each entry is the coercion of a real.
-/
import proofs.«180098_g15178414424503_retrytranche2_113_4_alg».proof.Pre_finite_inputs
import Idealize.ShloMosaic.Lib.ReduceAll
import Idealize.ShloMosaic.Lib.ValueIdx
import Idealize.ShloMosaic.PureOps.Ideal.Laws

noncomputable section

namespace Cert.GraphConv

open Idealize.ShloMosaic Idealize.ShloMosaic.ValueIdx

/-- The pattern `0x7F800000` is `+∞`. -/
theorem ofBits_inf : Ideal.ofBits .f32 0x7F800000#32 = (⊤ : EReal) := by simp [Ideal.ofBits, Ideal.ieee]

/-- An extended real whose absolute value `max x (-x)` is below `+∞` is a real number. -/
theorem real_of_abs_lt_inf (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

instance : Subsingleton Cert.Pre_finite_inputs.S_.Idx := ⟨fun a b => funext fun d => d.elim0⟩

/-- One array's `all (|x| < +∞)` being true makes each of its entries a real number. -/
theorem real_of_all {s : Shape} {axes : List (Fin s.rank)} (x : FVec Ideal s .f32)
    (bc : Cert.Pre_finite_inputs.S_.BroadcastsInDim s (![] : Fin 0 → Fin s.rank))
    (rd : s.ReducesTo axes Cert.Pre_finite_inputs.S_) (h0 : 0 < Cert.Pre_finite_inputs.S_.numel)
    (e : Host.reduce IntOp.andi (cmpf .olt (Host.absf x) (broadcastInDim s ![] bc (constant Cert.Pre_finite_inputs.S_ .f32 0x7F800000#32)))
        (constantI Cert.Pre_finite_inputs.S_ 1 1#1) rd h0 ix0 = 1#1) (i : s.Idx) : ∃ r : ℝ, x i = (r : EReal) := by
  have hi := Host.reduce_andi_all _ _ rd h0 ix0 e i
  exact real_of_abs_lt_inf (x i) hi

variable [Cert.Pre_finite_inputs.Facts]

/-- The precondition holding of three arrays makes every entry of each a real number. -/
theorem real_of_pre (x : FVec Ideal Cert.Pre_finite_inputs.S10000x128 .f32) (s : FVec Ideal Cert.Pre_finite_inputs.S10000x10000 .f32)
    (w : FVec Ideal Cert.Pre_finite_inputs.S128x128 .f32)
    (h : Cert.Pre_finite_inputs.fn (F := Ideal) x s w = fun _ => 1#1) :
    (∀ i, ∃ r : ℝ, x i = (r : EReal)) ∧ (∀ i, ∃ r : ℝ, s i = (r : EReal)) ∧ (∀ i, ∃ r : ℝ, w i = (r : EReal)) := by
  have h' := congrFun h ix0
  dsimp only [Cert.Pre_finite_inputs.fn] at h'
  obtain ⟨h12, h3⟩ := IntOp.andi_eq_one.1 h'
  obtain ⟨h1, h2⟩ := IntOp.andi_eq_one.1 h12
  exact ⟨real_of_all x _ _ _ h1, real_of_all s _ _ _ h2, real_of_all w _ _ _ h3⟩

end Cert.GraphConv

end
-- ==== Proof.RefValue.lean ====
/-
  The reference's result, read index by index, is `transformFirst`: the weight applied to every node's features
  (the first product, over the 128 input features), then the neighbours summed through the adjacency (the second
  product, over the 10000 nodes), then `max · 0`.
-/
import proofs.«180098_g15178414424503_retrytranche2_113_4_alg».proof.Proof.Gen.ReferenceIdeal.Read
import proofs.«180098_g15178414424503_retrytranche2_113_4_alg».proof.Proof.Spec

noncomputable section

namespace Cert.GraphConv.Ref

open Idealize.ShloMosaic Idealize.ShloMosaic.ValueIdx Cert.ReferenceIdeal Cert.ReferenceIdeal.Read

/-- The second product's left operand index at output `(p, l)` and contraction `j`: row `p`, column `j` of the adjacency. -/
theorem lidx_v1 (p : Fin 10000) (l : Fin 128) (j : Fin 10000) : lidx_main_v1 (ix2 p l) j = ix2 p j :=
  funext fun a => Fin.ext (by match a with | ⟨0, _⟩ => rfl | ⟨1, _⟩ => rfl)

/-- Its right operand index: row `j`, column `l` of the transformed features. -/
theorem ridx_v1 (p : Fin 10000) (l : Fin 128) (j : Fin 10000) : ridx_main_v1 (ix2 p l) j = ix2 j l :=
  funext fun a => Fin.ext (by match a with | ⟨0, _⟩ => rfl | ⟨1, _⟩ => rfl)

/-- The first product's left operand index at output `(j, l)` and contraction `k`: feature `k` of node `j`. -/
theorem lidx_v0 (j : Fin 10000) (l : Fin 128) (k : Fin 128) : lidx_main_v0 (ix2 j l) k = ix2 j k :=
  funext fun a => Fin.ext (by match a with | ⟨0, _⟩ => rfl | ⟨1, _⟩ => rfl)

/-- Its right operand index: row `k`, column `l` of the weight. -/
theorem ridx_v0 (j : Fin 10000) (l : Fin 128) (k : Fin 128) : ridx_main_v0 (ix2 j l) k = ix2 k l :=
  funext fun a => Fin.ext (by match a with | ⟨0, _⟩ => rfl | ⟨1, _⟩ => rfl)

/-- The reference's last stage is `transformFirst` of the features, the adjacency and the weight. -/
theorem val_eq (x : FVec Ideal S10000x128 .f32) (s : FVec Ideal S10000x10000 .f32) (w : FVec Ideal S128x128 .f32) :
    val_main_v2 (F := Ideal) x s w = Cert.GraphConv.transformFirst x s w := by
  funext i
  obtain ⟨p, l, rfl⟩ : ∃ (p : Fin 10000) (l : Fin 128), i = ix2 p l := ⟨i 0, i 1, eq_ix2 i⟩
  rw [val_main_v2_apply, val_main_v1_apply, val_main_call0_v0_apply, val_main_call0_cst_apply, Cert.GraphConv.transformFirst_apply]
  simp only [lidx_v1, ridx_v1, Ideal.maximumf_def, Ideal.ofBits_def, Ideal.ofBits_zero_f32]
  refine congrArg (max · 0) (Finset.sum_congr rfl fun j _ => congrArg (s (ix2 p j) * ·) ?_)
  rw [val_main_v0_apply]
  simp only [lidx_v0, ridx_v0]

end Cert.GraphConv.Ref

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.KernelBody.lean ====
/-
  The kernel's body at an index: for a block `a` of 400 adjacency rows, the features `x` and the weight `w`, the stored
  value at row `p`, feature `l` is `max (Σ k, (Σ j, a p j · x j k) · w k l) 0`: the first product contracts over the
  10000 nodes, the second over the 128 input features, each into a zero accumulator.
-/
import proofs.«180098_g15178414424503_retrytranche2_113_4_alg».proof.Proof.Gen.KernelIdeal.Skeleton
import proofs.«180098_g15178414424503_retrytranche2_113_4_alg».proof.Proof.LibRowOps

noncomputable section

namespace Cert.GraphConv.Kern

open Idealize.ShloMosaic Idealize.ShloMosaic.ValueIdx Cert.KernelIdeal Cert.KernelIdeal.Gen

/-- The body's stored value at row `p` of the block and output feature `l`. -/
theorem body_apply (a : Vec Ideal S400x10000 .f32) (x : Vec Ideal S10000x128 .f32) (w : Vec Ideal S128x128 .f32)
    (p : Fin 400) (l : Fin 128) :
    k0_pay1 (F := Ideal) a x w (ix2 p l)
      = max (∑ k : Fin 128, (∑ j : Fin 10000, a (ix2 p j) * x (ix2 j k)) * w (ix2 k l)) 0 := by
  unfold k0_pay1
  refine (congrArg₂ max ?_ Ideal.ofBits_zero_f32 :
    max (FloatOps.matmul dot_S400x128_S128x128_S400x128_1_0_0_1_n_n none
          (FloatOps.matmul dot_S400x10000_S10000x128_S400x128_1_0_0_1_n_n none a x (constant S400x128 .f32 0x00000000#32))
          w (constant S400x128 .f32 0x00000000#32) (ix2 p l))
        (Ideal.ofBits .f32 0x00000000#32) = _)
  refine (Cert.RowOps.matmul_apply Facts₀.dot_S400x128_S128x128_S400x128_1_0_0_1_n_n_wf none _ w p l).trans ?_
  exact Finset.sum_congr rfl fun k _ => congrArg (· * w (ix2 k l))
    (Cert.RowOps.matmul_apply Facts₀.dot_S400x10000_S10000x128_S400x128_1_0_0_1_n_n_wf none a x p k)

end Cert.GraphConv.Kern

end
-- ==== Proof.KernelValue.lean ====
/-
  The kernel's result array: 25 grid points, point `t` taking rows `400·t … 400·t + 399` of the adjacency (all 10000
  columns), the whole feature array and the whole weight, and writing rows `400·t … 400·t + 399` of the result. Each
  written block is that block of `aggregateFirst` of the three whole arrays, and the 25 blocks tile the 10000 rows, so
  the array after the run is `aggregateFirst` of the arguments.
-/
import proofs.«180098_g15178414424503_retrytranche2_113_4_alg».proof.Proof.Gen.KernelIdeal.Value
import proofs.«180098_g15178414424503_retrytranche2_113_4_alg».proof.Proof.KernelBody
import proofs.«180098_g15178414424503_retrytranche2_113_4_alg».proof.Proof.Spec

noncomputable section

namespace Cert.GraphConv.Kern

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- Every access of the body starts at the origin of its buffer. -/
theorem origin : (![0, 0] : Fin 2 → Nat) = fun _ => 0 := funext fun a => by fin_cases a <;> rfl

/-- The block indices at grid point `t`, decided over the 25 points: the features and the weight always at block
    `(0, 0)`; the adjacency and the result at block row `t`, block column `0`. -/
theorem block_index : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `aggregateFirst` of the arrays as the region finds them. -/
theorem flushed_eq (c : Dev nD) (t : Fin cfg0.N) :
    (dats m 0 c).flushed 3 t = ((cfg0.win 3).blk t).view.read (Elt Ideal)
      (Cert.GraphConv.aggregateFirst (V m c main_arg0) (V m c main_arg1) (V m c main_arg2)) := by
  rw [Cert.KernelIdeal.Value.flushed3]
  unfold out0_3
  rw [View.canon_unit_zero origin]
  simp only [View.ld_unit_zero (S := S400x10000) origin, View.ld_unit_zero (S := S10000x128) origin, View.ld_unit_zero (S := S128x128) origin]
  obtain ⟨e00, e01, e10, e11, e20, e21, e30, e31⟩ := block_index t
  have ht : t.val < 25 := t.isLt
  funext y
  obtain ⟨p, l, rfl⟩ : ∃ (p : Fin 400) (l : Fin 128), y = ix2 p l := ⟨y 0, y 1, eq_ix2 y⟩
  have hp : p.val < 400 := p.isLt
  -- the row of the whole arrays that row `p` of block `t` is
  have hr : t.val * 400 + p.val < 10000 := by omega
  have hout : ((cfg0.win 3).blk t).view.emb (ix2 p l) = ix2 (⟨t.val * 400 + p.val, hr⟩ : Fin 10000) l := by
    funext a; apply Fin.ext
    match a with
    | ⟨0, _⟩ => show win0_3.index t (0 : Fin 2) * 400 + 1 * p.val = t.val * 400 + p.val; omega
    | ⟨1, _⟩ => show win0_3.index t (1 : Fin 2) * 128 + 1 * l.val = l.val; omega
  have hadj : ∀ j : Fin 10000, iblk m c 2 t (ix2 p j) = V m c main_arg1 (ix2 (⟨t.val * 400 + p.val, hr⟩ : Fin 10000) j) := fun j => by
    show V m c main_arg1 (((cfg0.win 2).blk t).view.emb (ix2 p j)) = _
    refine congrArg (V m c main_arg1) (funext fun a => Fin.ext ?_)
    match a with
    | ⟨0, _⟩ => show win0_2.index t (0 : Fin 2) * 400 + 1 * p.val = t.val * 400 + p.val; omega
    | ⟨1, _⟩ => show win0_2.index t (1 : Fin 2) * 10000 + 1 * j.val = j.val; omega
  have hfeat : ∀ (j : Fin 10000) (k : Fin 128), iblk m c 0 t (ix2 j k) = V m c main_arg0 (ix2 j k) := fun j k => by
    show V m c main_arg0 (((cfg0.win 0).blk t).view.emb (ix2 j k)) = _
    refine congrArg (V m c main_arg0) (funext fun a => Fin.ext ?_)
    match a with
    | ⟨0, _⟩ => show win0_0.index t (0 : Fin 2) * 10000 + 1 * j.val = j.val; omega
    | ⟨1, _⟩ => show win0_0.index t (1 : Fin 2) * 128 + 1 * k.val = k.val; omega
  have hwt : ∀ (k l : Fin 128), iblk m c 1 t (ix2 k l) = V m c main_arg2 (ix2 k l) := fun k l => by
    show V m c main_arg2 (((cfg0.win 1).blk t).view.emb (ix2 k l)) = _
    refine congrArg (V m c main_arg2) (funext fun a => Fin.ext ?_)
    match a with
    | ⟨0, _⟩ => show win0_1.index t (0 : Fin 2) * 128 + 1 * k.val = k.val; omega
    | ⟨1, _⟩ => show win0_1.index t (1 : Fin 2) * 128 + 1 * l.val = l.val; omega
  show k0_pay1 (F := Ideal) (iblk m c 2 t) (iblk m c 0 t) (iblk m c 1 t) (ix2 p l)
    = Cert.GraphConv.aggregateFirst (V m c main_arg0) (V m c main_arg1) (V m c main_arg2) (((cfg0.win 3).blk t).view.emb (ix2 p l))
  rw [hout, Cert.GraphConv.aggregateFirst_apply]
  refine (body_apply (iblk m c 2 t) (iblk m c 0 t) (iblk m c 1 t) p l).trans ?_
  refine congrArg (max · 0) (Finset.sum_congr rfl fun k _ => ?_)
  rw [hwt k l]
  refine congrArg (· * V m c main_arg2 (ix2 k l)) (Finset.sum_congr rfl fun j _ => ?_)
  rw [hadj j, hfeat j k]

/-- An index of the result array is in point `t`'s block iff each coordinate is in the block's range on its axis. -/
theorem mem_blk (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v0).slice (win0_3.rect t)).set ↔ _
  rw [View.set_slice_whole, Rect.mem_set_unit]
  exact Iff.rfl

/-- Every index of the result is in some point's block: row `r` is in the block of point `r / 400`. -/
theorem covered (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 25 := N_0
  have hq : (i 0).val / 400 < cfg0.N := by rw [hN]; omega
  obtain ⟨-, -, -, -, -, -, e30, e31⟩ := block_index ⟨(i 0).val / 400, hq⟩
  refine ⟨⟨(i 0).val / 400, hq⟩, flush0_3 _, ?_⟩
  rw [mem_blk]
  intro a
  match a with
  | ⟨0, _⟩ =>
    show win0_3.index ⟨(i 0).val / 400, hq⟩ (0 : Fin 2) * 400 ≤ (i 0).val ∧ (i 0).val < win0_3.index ⟨(i 0).val / 400, hq⟩ (0 : Fin 2) * 400 + 400
    rw [e30]; show (i 0).val / 400 * 400 ≤ (i 0).val ∧ (i 0).val < (i 0).val / 400 * 400 + 400; omega
  | ⟨1, _⟩ =>
    show win0_3.index ⟨(i 0).val / 400, hq⟩ (1 : Fin 2) * 128 ≤ (i 1).val ∧ (i 1).val < win0_3.index ⟨(i 0).val / 400, hq⟩ (1 : Fin 2) * 128 + 128
    rw [e31]; omega

/-- The result array after the run is `aggregateFirst` of the argument arrays. -/
theorem final (c : Dev nD) : (dats m 0 c).arrAt 3 cfg0.N
    = Cert.GraphConv.aggregateFirst (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: every weakly fair execution ends with the result at `aggregateFirst` of the arguments and the
    arguments unchanged. -/
theorem run : θ_run defs (onTc (τ := τ) (main (F := Ideal))) ⟨m, fun _ => 0, ρ⟩ fun r => ∀ c : Dev nD,
      r.2.mem ((c : Thread nD τ).loc main_v0)
        = Cert.GraphConv.aggregateFirst (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.GraphConv.Kern

end
-- ==== Proof.lean ====
/-
  A graph-convolution layer `relu (S · X · W)` (10000 nodes, 128 features in and out) computed two ways.

  The kernel walks the adjacency `S` in 25 blocks of 400 rows; for each it forms `(S_block · X) · W` and keeps the
  positive part, so its result is `aggregateFirst X S W`: entry `(i, l) = max (Σ k, (Σ j, S i j · X j k) · W k l) 0`.
  The reference forms `X · W` first, then `S · (X · W)`, then the positive part: `transformFirst X S W`, entry
  `(i, l) = max (Σ j, S i j · (Σ k, X j k · W k l)) 0`.

  The two are equal by associativity of the matrix product. On the extended reals that needs every entry finite
  (distributivity fails where a sum meets both infinities), and the precondition says exactly that: each entry of the
  three arrays has `|x| < +∞`, hence is a real number, and both sides are the real double sum
  `Σ j, Σ k, S i j · X j k · W k l`.

  The idealization rewrote nothing, so `preserves` has no conjunct. The three frames are the programs' runs with the
  result dropped.
-/
import proofs.«180098_g15178414424503_retrytranche2_113_4_alg».proof.Defs
import proofs.«180098_g15178414424503_retrytranche2_113_4_alg».proof.Proof.Gen.Kernel
import proofs.«180098_g15178414424503_retrytranche2_113_4_alg».proof.Proof.Gen.Kernel.Skeleton
import proofs.«180098_g15178414424503_retrytranche2_113_4_alg».proof.Proof.Gen.Kernel.Launch
import proofs.«180098_g15178414424503_retrytranche2_113_4_alg».proof.Proof.Gen.Kernel.Points
import proofs.«180098_g15178414424503_retrytranche2_113_4_alg».proof.Proof.Gen.Kernel.Frame
import proofs.«180098_g15178414424503_retrytranche2_113_4_alg».proof.Proof.Gen.KernelIdeal
import proofs.«180098_g15178414424503_retrytranche2_113_4_alg».proof.Proof.Gen.KernelIdeal.Skeleton
import proofs.«180098_g15178414424503_retrytranche2_113_4_alg».proof.Proof.Gen.KernelIdeal.Launch
import proofs.«180098_g15178414424503_retrytranche2_113_4_alg».proof.Proof.Gen.KernelIdeal.Points
import proofs.«180098_g15178414424503_retrytranche2_113_4_alg».proof.Proof.Gen.KernelIdeal.Frame
import proofs.«180098_g15178414424503_retrytranche2_113_4_alg».proof.Proof.Gen.ReferenceIdeal
import proofs.«180098_g15178414424503_retrytranche2_113_4_alg».proof.Proof.Gen.Pre_finite_inputs
import proofs.«180098_g15178414424503_retrytranche2_113_4_alg».proof.Proof.Gen.KernelIdeal.Value
import proofs.«180098_g15178414424503_retrytranche2_113_4_alg».proof.Proof.Gen.ReferenceIdeal.Run
import proofs.«180098_g15178414424503_retrytranche2_113_4_alg».proof.Proof.Gen.ReferenceIdeal.Read
import proofs.«180098_g15178414424503_retrytranche2_113_4_alg».proof.Proof.Spec
import proofs.«180098_g15178414424503_retrytranche2_113_4_alg».proof.Proof.Finite
import proofs.«180098_g15178414424503_retrytranche2_113_4_alg».proof.Proof.RefValue
import proofs.«180098_g15178414424503_retrytranche2_113_4_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments, with every entry finite: the kernel ends at `aggregateFirst` of
    them, the reference at `transformFirst` of them, and on real entries these are one function. -/
theorem algebraic : Cert.algebraic_KernelIdeal_ReferenceIdeal := by
  intro m ρ m' ρ' hpre hagree
  refine ⟨_, Cert.GraphConv.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.GraphConv.Ref.val_eq, (hagree c).1, (hagree c).2.1, (hagree c).2.2]
  obtain ⟨hx, hs, hw⟩ := Cert.GraphConv.real_of_pre _ _ _ (hpre c)
  exact (Cert.GraphConv.aggregateFirst_eq_transformFirst _ _ _ hx hs hw).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
